-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S13x1024 : Shape := ⟨2, ![13, 1024]⟩
abbrev S_ : Shape := ⟨0, ![]⟩

class Facts : Prop where
  bcast_S_S13x1024 : S_.BroadcastsInDim S13x1024 (![] : Fin 0 → Fin S13x1024.rank)
  reducesTo_S13x1024_S_d0_1 : S13x1024.ReducesTo [0, 1] S_
  h_S_ : 0 < S_.numel

variable [Facts]

def fn {F : FTy → Type} [FloatOps F] (main_arg0 : IVec S4x8192 32) (main_arg1 : FVec F S13x1024 .f32) : IVec S_ 1 :=
  let main_v0 : FVec F S13x1024 .f32 := Host.absf main_arg1
  let main_cst : FVec F S_ .f32 := constant S_ .f32 0x7F800000#32
  let main_v1 : FVec F S13x1024 .f32 := broadcastInDim S13x1024 ![] bcast_S_S13x1024 main_cst
  let main_v2 : IVec S13x1024 1 := cmpf .olt main_v0 main_v1
  let main_c : IVec S_ 1 := constantI S_ 1 1#1
  let main_v3 : IVec S_ 1 := (fun x v => Host.reduce IntOp.andi x v reducesTo_S13x1024_S_d0_1 h_S_) main_v2 main_c
  main_v3
-- ==== Kernel.lean ====
abbrev S4x8192 : Shape := ⟨2, ![4, 8192]⟩
abbrev S13x1024 : Shape := ⟨2, ![13, 1024]⟩
abbrev S32768x1 : Shape := ⟨2, ![32768, 1]⟩
abbrev S32768x1024 : Shape := ⟨2, ![32768, 1024]⟩
abbrev S4096x1 : Shape := ⟨2, ![4096, 1]⟩
abbrev S4096x1024 : Shape := ⟨2, ![4096, 1024]⟩
abbrev S1x13 : Shape := ⟨2, ![1, 13]⟩
abbrev S4096x13 : Shape := ⟨2, ![4096, 13]⟩
abbrev S4x8192x1024 : Shape := ⟨3, ![4, 8192, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x8192, .i32⟩
  | .hbm, ⟨1, _⟩ => ⟨S13x1024, .f32⟩
  | .hbm, ⟨2, _⟩ => ⟨S32768x1, .i32⟩
  | .hbm, ⟨3, _⟩ => ⟨S32768x1024, .f32⟩
  | .hbm, ⟨4, _⟩ => ⟨S4x8192x1024, .f32⟩
  | .local _ .vmem, ⟨0, _⟩ => ⟨S4096x1, .i32⟩
  | .local _ .vmem, ⟨1, _⟩ => ⟨S4096x1, .i32⟩
  | .local _ .vmem, ⟨2, _⟩ => ⟨S13x1024, .f32⟩
  | .local _ .vmem, ⟨3, _⟩ => ⟨S4096x1024, .f32⟩
  | .local _ .vmem, ⟨4, _⟩ => ⟨S4096x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x8192_S32768x1 : S4x8192.ShapeCasts S32768x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S1x13_d1_w32 : S1x13.Iotas .tc 32 [1]
  broadcasts_S4096x1_S4096x13 : S4096x1.Broadcasts S4096x13
  broadcasts_S1x13_S4096x13 : S1x13.Broadcasts S4096x13
  inb_S13x1024_S13x1024_0_0 : ∀ a, (![0, 0] : Fin 2 → Nat) a + S13x1024.size a ≤ S13x1024.size a
  h_S13x1024 : 0 < S13x1024.numel
  inb_S4096x1024_S4096x1024_0_0 : ∀ a, (![0, 0] : Fin 2 → Nat) a + S4096x1024.size a ≤ S4096x1024.size a
  h_S4096x1024 : 0 < S4096x1024.numel
  shapeCasts_S32768x1024_S4x8192x1024 : S32768x1024.ShapeCasts S4x8192x1024
  dot_S4096x13_S13x1024_S4096x1024_1_0_0_1_n_n_wf : DotDims.WF S4096x13 S13x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S32768x1.size a
  hwx0_0 : ∀ i : grid0.Coords, EltTy.bits .i32 = 32 ∨ (Rect.block (s := S32768x1) S4096x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x1024.size a ≤ S13x1024.size a
  hwx0_1 : ∀ i : grid0.Coords, EltTy.bits .f32 = 32 ∨ (Rect.block (s := S13x1024) S13x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S32768x1024.size a
  hwx0_2 : ∀ i : grid0.Coords, EltTy.bits .f32 = 32 ∨ (Rect.block (s := S32768x1024) S4096x1024.size (cc0_transform_2 i) (hinb0_2 i)).WholeWords (EltTy.packing .f32)

variable [Facts₀]

def dot_S4096x13_S13x1024_S4096x1024_1_0_0_1_n_n : DotDims S4096x13 S13x1024 S4096x1024 where
  lhsContracting := [1]
  rhsContracting := [0]
  lhsNonContracting := [0]
  rhsNonContracting := [1]
  lhsBatch := []
  rhsBatch := []
  wf := dot_S4096x13_S13x1024_S4096x1024_1_0_0_1_n_n_wf

abbrev win0_0 : Pipeline.Window sig grid0 :=
  Pipeline.Window.ofSpec (Memref.whole main_v0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S13x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192 : Shape := ⟨2, ![4, 8192]⟩
abbrev S13x1024 : Shape := ⟨2, ![13, 1024]⟩
abbrev S4x8192x1 : Shape := ⟨3, ![4, 8192, 1]⟩
abbrev S13 : Shape := ⟨1, ![13]⟩
abbrev S1x1x13 : Shape := ⟨3, ![1, 1, 13]⟩
abbrev S4x8192x13 : Shape := ⟨3, ![4, 8192, 13]⟩
abbrev S_ : Shape := ⟨0, ![]⟩
abbrev S4x8192x1024 : Shape := ⟨3, ![4, 8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S13x1024, .f32⟩
  | .hbm, ⟨2, _⟩ => ⟨S4x8192x1, .i32⟩
  | .hbm, ⟨3, _⟩ => ⟨S13, .i32⟩
  | .hbm, ⟨4, _⟩ => ⟨S1x1x13, .i32⟩
  | .hbm, ⟨5, _⟩ => ⟨S4x8192x13, .i32⟩
  | .hbm, ⟨6, _⟩ => ⟨S4x8192x13, .i32⟩
  | .hbm, ⟨7, _⟩ => ⟨S4x8192x13, .i32⟩
  | .hbm, ⟨8, _⟩ => ⟨S_, .i32⟩
  | .hbm, ⟨9, _⟩ => ⟨S4x8192x13, .i32⟩
  | .hbm, ⟨10, _⟩ => ⟨S4x8192x13, .i32⟩
  | .hbm, ⟨11, _⟩ => ⟨S4x8192x13, .f32⟩
  | .hbm, ⟨12, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  bcast_S4x8192_S4x8192x1_0_1 : S4x8192.BroadcastsInDim S4x8192x1 (![0, 1] : Fin 2 → Fin S4x8192x1.rank)
  bcast_S13_S1x1x13_2 : S13.BroadcastsInDim S1x1x13 (![2] : Fin 1 → Fin S1x1x13.rank)
  bcast_S4x8192x1_S4x8192x13_0_1_2 : S4x8192x1.BroadcastsInDim S4x8192x13 (![0, 1, 2] : Fin 3 → Fin S4x8192x13.rank)
  bcast_S1x1x13_S4x8192x13_0_1_2 : S1x1x13.BroadcastsInDim S4x8192x13 (![0, 1, 2] : Fin 3 → Fin S4x8192x13.rank)
  bcast_S_S4x8192x13 : S_.BroadcastsInDim S4x8192x13 (![] : Fin 0 → Fin S4x8192x13.rank)
  dot_S4x8192x13_S13x1024_S4x8192x1024_2_0_01_1_n_n_wf : DotDims.WF S4x8192x13 S13x1024 S4x8192x1024 [2] [0] [0, 1] [1] [] []

variable [Facts₀]

def dot_S4x8192x13_S13x1024_S4x8192x1024_2_0_01_1_n_n : DotDims S4x8192x13 S13x1024 S4x8192x1024 where
  lhsContracting := [2]
  rhsContracting := [0]
  lhsNonContracting := [0, 1]
  rhsNonContracting := [1]
  lhsBatch := []
  rhsBatch := []
  wf := dot_S4x8192x13_S13x1024_S4x8192x1024_2_0_01_1_n_n_wf

class Facts : Prop extends Facts₀ where

variable [Facts]
-- ==== Proof.BitRows.lean ====
/-
  The common value of the two programs.

  A position word `p` selects rows of the 13-row table bit by bit: bit `k` of `p` — the arithmetic right shift of `p`
  by `k`, masked to its low bit, read as a signed integer, so 0 or 1 — weights table row `k`, and the output row
  of `p` is the sum over `k < 13` of weight times table row. One program computes this on the positions flattened
  to 32768 rows of one column and regroups the result; the other computes it on the [4, 8192] grid of positions.
  The two arrangements are the same array: row `b * 8192 + s` of the flat result is row `(b, s)` of the grid.
-/
import Idealize.ShloMosaic.PureOps.Ideal
import Idealize.ShloMosaic.Lib.ValueIdx
import Idealize.ShloMosaic.Lib.Pipeline.Value

noncomputable section

namespace Cert.BitRows

open Idealize.ShloMosaic Idealize.ShloMosaic.ValueIdx

/-- The arithmetic right shift of a 32-bit word is one function on the host and on the vector unit: both shift
    by an amount below 32 and both fill with the sign bit from 32 on. -/
theorem shrsi_host (x y : BitVec 32) : IntOp.shrsi .host x y = IntOp.shrsi .vector x y := by
  simp [IntOp.shrsi, IntOp.cornerWord]

/-- Bit `k` of the position word `p` as an extended real. -/
def bit (p : BitVec 32) (k : Fin 13) : EReal :=
  FloatOps.sitofp (F := Ideal) .f32 (IntOp.andi (IntOp.shrsi .vector p (BitVec.ofNat 32 k.val)) 1#32)

/-- The output row of position `p`, at column `d`: the table rows at the set bits of `p`, summed. -/
def row (p : BitVec 32) (w : (⟨2, ![13, 1024]⟩ : Shape).Idx → EReal) (d : Fin 1024) : EReal :=
  ∑ k : Fin 13, bit p k * w (ix2 k d)

/-- A row depends on the position word, and on the table only through its column `d`. -/
theorem row_congr {p p' : BitVec 32} {w w' : (⟨2, ![13, 1024]⟩ : Shape).Idx → EReal} {d d' : Fin 1024}
    (hp : p = p') (hw : ∀ k : Fin 13, w (ix2 k d) = w' (ix2 k d')) : row p w d = row p' w' d' := by
  unfold row
  subst hp
  exact Finset.sum_congr rfl fun k _ => by rw [hw k]

/-- The result over positions laid out as 32768 rows of one column. -/
def flat (x : (⟨2, ![32768, 1]⟩ : Shape).Idx → BitVec 32) (w : (⟨2, ![13, 1024]⟩ : Shape).Idx → EReal) :
    (⟨2, ![32768, 1024]⟩ : Shape).Idx → EReal :=
  fun i => row (x (ix2 (n0 := 32768) (n1 := 1) (i 0) 0)) w (i 1)

/-- The result over positions laid out as a [4, 8192] grid. -/
def grid (x : (⟨2, ![4, 8192]⟩ : Shape).Idx → BitVec 32) (w : (⟨2, ![13, 1024]⟩ : Shape).Idx → EReal) :
    (⟨3, ![4, 8192, 1024]⟩ : Shape).Idx → EReal :=
  fun i => row (x (ix2 (n0 := 4) (n1 := 8192) (i 0) (i 1))) w (i 2)

/-- Flattening the positions, computing row by row, and regrouping the rows is computing on the grid: both
    regroupings keep the row-major order, in which grid row `(b, s)` is flat row `b * 8192 + s`. -/
theorem regroup_flat (x : (⟨2, ![4, 8192]⟩ : Shape).Idx → BitVec 32) (w : (⟨2, ![13, 1024]⟩ : Shape).Idx → EReal)
    (hx : (⟨2, ![4, 8192]⟩ : Shape).ShapeCasts ⟨2, ![32768, 1]⟩)
    (ho : (⟨2, ![32768, 1024]⟩ : Shape).ShapeCasts ⟨3, ![4, 8192, 1024]⟩) :
    shapeCast ⟨3, ![4, 8192, 1024]⟩ (flat (shapeCast ⟨2, ![32768, 1]⟩ x hx) w) ho = grid x w := by
  funext i
  have h0 : (i 0).val < 4 := (i 0).isLt
  have h1 : (i 1).val < 8192 := (i 1).isLt
  have h2 : (i 2).val < 1024 := (i 2).isLt
  have hr : (i 0).val * 8192 + (i 1).val < 32768 := by omega
  rw [shapeCast_apply _ ho i (ix2 (n0 := 32768) (n1 := 1024) ⟨(i 0).val * 8192 + (i 1).val, hr⟩ ⟨(i 2).val, h2⟩) (by
    rw [Shape.rowMajor_val_two, Shape.rowMajor_val_three]
    show ((i 0).val * 8192 + (i 1).val) * 1024 + (i 2).val = ((i 0).val * 8192 + (i 1).val) * 1024 + (i 2).val
    rfl)]
  unfold flat grid
  show row (shapeCast ⟨2, ![32768, 1]⟩ x hx (ix2 (n0 := 32768) (n1 := 1) ⟨(i 0).val * 8192 + (i 1).val, hr⟩ 0)) w ⟨(i 2).val, h2⟩ = _
  rw [shapeCast_apply x hx _ (ix2 (n0 := 4) (n1 := 8192) (i 0) (i 1)) (by
    rw [Shape.rowMajor_val_two, Shape.rowMajor_val_two]
    show (i 0).val * 8192 + (i 1).val = ((i 0).val * 8192 + (i 1).val) * 1 + 0
    omega)]
  rfl

end Cert.BitRows

end
-- ==== Proof.KernelRow.lean ====
/-
  The kernel body's stored value, read at an index, is the common value's row.

  The body stores one matrix product into a zero accumulator: entry `(r, d)` is the sum over `k < 13` of the
  converted bit matrix at `(r, k)` times the loaded table at `(k, d)`. The bit matrix at `(r, k)` is the loaded
  position column at row `r` (a shape cast to its own shape, then stretched along the new axis) shifted right by
  the lane index `k` (an iota along the second axis, stretched along the first), masked with one, converted.
-/
import proofs.«409203_j53077205844631_3_alg».proof.Proof.Gen.KernelIdeal.Skeleton
import proofs.«409203_j53077205844631_3_alg».proof.Proof.BitRows
import Idealize.ShloMosaic.PureOps.Ideal.Laws

noncomputable section

namespace Cert.KernelIdeal.RowValue

open Cert.KernelIdeal Cert.KernelIdeal.Gen
open Idealize.ShloMosaic Idealize.ShloMosaic.ValueIdx

/-- The left operand of the product is read at the output's row and the contracted coordinate, -/
theorem lhs_row (j : S4096x1024.Idx) (q : dot_S4096x13_S13x1024_S4096x1024_1_0_0_1_n_n.contr.Idx) :
    (dot_S4096x13_S13x1024_S4096x1024_1_0_0_1_n_n.lhsIdx j q 0).val = (j 0).val := by
  unfold DotDims.lhsIdx
  rw [dif_neg (show ¬(0 : Fin S4096x13.rank) ∈ dot_S4096x13_S13x1024_S4096x1024_1_0_0_1_n_n.lhsBatch by decide), dif_pos (show (0 : Fin S4096x13.rank) ∈ dot_S4096x13_S13x1024_S4096x1024_1_0_0_1_n_n.lhsNonContracting by decide)]
  rfl
theorem lhs_contr (j : S4096x1024.Idx) (q : dot_S4096x13_S13x1024_S4096x1024_1_0_0_1_n_n.contr.Idx) :
    (dot_S4096x13_S13x1024_S4096x1024_1_0_0_1_n_n.lhsIdx j q 1).val = (q ⟨0, by decide⟩).val :=
  dot_S4096x13_S13x1024_S4096x1024_1_0_0_1_n_n.lhsIdx_val_of_single rfl j q
/-- and the right operand at the contracted coordinate and the output's column. -/
theorem rhs_contr (j : S4096x1024.Idx) (q : dot_S4096x13_S13x1024_S4096x1024_1_0_0_1_n_n.contr.Idx) :
    (dot_S4096x13_S13x1024_S4096x1024_1_0_0_1_n_n.rhsIdx j q 0).val = (q ⟨0, by decide⟩).val :=
  dot_S4096x13_S13x1024_S4096x1024_1_0_0_1_n_n.rhsIdx_val_of_single rfl j q
theorem rhs_col (j : S4096x1024.Idx) (q : dot_S4096x13_S13x1024_S4096x1024_1_0_0_1_n_n.contr.Idx) :
    (dot_S4096x13_S13x1024_S4096x1024_1_0_0_1_n_n.rhsIdx j q 1).val = (j 1).val := by
  unfold DotDims.rhsIdx
  rw [dif_neg (show ¬(1 : Fin S13x1024.rank) ∈ dot_S4096x13_S13x1024_S4096x1024_1_0_0_1_n_n.rhsBatch by decide), dif_pos (show (1 : Fin S13x1024.rank) ∈ dot_S4096x13_S13x1024_S4096x1024_1_0_0_1_n_n.rhsNonContracting by decide)]
  rfl

/-- The position column, cast to its own shape and stretched along the bit axis, read at `(r, k)` is its row `r`. -/
theorem pos_apply (v0 : IVec S4096x1 32) (h1 : S4096x1.ShapeCasts S4096x1) (h2 : S4096x1.Broadcasts S4096x13)
    (r : Fin 4096) (k : Fin 13) :
    broadcastTo S4096x13 (shapeCast S4096x1 v0 h1) h2 (ix2 r k) = v0 (ix2 r 0) := by
  rw [shapeCast_self]
  exact broadcastTo_apply v0 h2 (ix2 r k) (ix2 r 0) (fun a => match a with
    | ⟨0, _⟩ => by show r.val = if (4096 : Nat) = 1 then 0 else r.val; rw [if_neg (by decide)]
    | ⟨1, _⟩ => by show 0 = if (1 : Nat) = 1 then 0 else k.val; rw [if_pos rfl])

/-- The lane index, stretched along the rows, read at `(r, k)` is the word `k`. -/
theorem lane_apply (h1 : S1x13.Iotas .tc 32 [1]) (h2 : S1x13.Broadcasts S4096x13) (r : Fin 4096) (k : Fin 13) :
    broadcastTo S4096x13 (iota .tc S1x13 32 [1] h1) h2 (ix2 r k) = BitVec.ofNat 32 k.val := by
  rw [broadcastTo_apply (iota .tc S1x13 32 [1] h1) h2 (ix2 r k) (ix2 (n0 := 1) (n1 := 13) 0 k) (fun a => match a with
    | ⟨0, _⟩ => by show 0 = if (1 : Nat) = 1 then 0 else r.val; rw [if_pos rfl]
    | ⟨1, _⟩ => by show k.val = if (13 : Nat) = 1 then 0 else k.val; rw [if_neg (by decide)])]
  exact iota_single_apply .tc S1x13 32 1 h1 _

/-- THE BODY'S VALUE at `(r, d)`: the row of the position loaded at row `r`, at column `d`. -/
theorem payload_apply (v0 : Vec Ideal S4096x1 .i32) (v9 : Vec Ideal S13x1024 .f32) (r : Fin 4096) (d : Fin 1024) :
    k0_pay1 (F := Ideal) v0 v9 (ix2 r d) = Cert.BitRows.row (v0 (ix2 r 0)) v9 d := by
  unfold k0_pay1
  simp only [matmul]
  rw [Ideal.matmul_constant_zero_apply, ← Equiv.sum_comp (contrEquiv1 dot_S4096x13_S13x1024_S4096x1024_1_0_0_1_n_n 13 rfl rfl).symm]
  unfold Cert.BitRows.row
  refine Finset.sum_congr rfl fun k _ => ?_
  have hk := contrEquiv1_symm_val dot_S4096x13_S13x1024_S4096x1024_1_0_0_1_n_n 13 rfl rfl k
  have el : dot_S4096x13_S13x1024_S4096x1024_1_0_0_1_n_n.lhsIdx (ix2 r d) ((contrEquiv1 dot_S4096x13_S13x1024_S4096x1024_1_0_0_1_n_n 13 rfl rfl).symm k) = ix2 (n0 := 4096) (n1 := 13) r k := funext fun a => Fin.ext (by
    match a with
    | ⟨0, _⟩ => exact lhs_row _ _
    | ⟨1, _⟩ => exact (lhs_contr _ _).trans hk)
  have er : dot_S4096x13_S13x1024_S4096x1024_1_0_0_1_n_n.rhsIdx (ix2 r d) ((contrEquiv1 dot_S4096x13_S13x1024_S4096x1024_1_0_0_1_n_n 13 rfl rfl).symm k) = ix2 (n0 := 13) (n1 := 1024) k d := funext fun a => Fin.ext (by
    match a with
    | ⟨0, _⟩ => exact (rhs_contr _ _).trans hk
    | ⟨1, _⟩ => exact rhs_col _ _)
  rw [el, er]
  show FloatOps.sitofp (F := Ideal) .f32 (IntOp.andi (IntOp.shrsi .vector (broadcastTo S4096x13 (shapeCast S4096x1 v0 _) _ (ix2 r k)) (broadcastTo S4096x13 (iota .tc S1x13 32 [1] _) _ (ix2 r k))) 1#32) * v9 (ix2 k d) = _
  rw [pos_apply, lane_apply]
  rfl

end Cert.KernelIdeal.RowValue

end
-- ==== Proof.KernelArray.lean ====
/-
  The kernel's result array after the run is the grid form of the common value.

  Each of the 8 grid points loads 4096 consecutive rows of the flattened position column and the whole table, and
  writes back the 4096 x 1024 block of rows of the same numbers: what point `t` writes is block `t` of the flat
  form of the common value, over the column as the region finds it. The 8 blocks tile the 32768 rows, so after
  the run the region's output array IS the flat form. The line before the region only flattens the [4, 8192]
  positions in row-major order, and the line after it regroups the 32768 rows as [4, 8192]: the grid form.
-/
import proofs.«409203_j53077205844631_3_alg».proof.Proof.Gen.KernelIdeal.Frame
import proofs.«409203_j53077205844631_3_alg».proof.Proof.KernelRow
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem offset_zero : (![0, 0] : Fin 2 → Nat) = fun _ => 0 := funext fun a => by fin_cases a <;> rfl

/-- The windows' block indices over the grid: the position column and the output move together, one block of
    rows per point, point `t` at block `t`; the column axes and the table do not move. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of 4096 rows is some point's. -/
theorem block_onto : ∀ q : Fin 8, ∃ t : Fin cfg0.N, win0_2.index t = ![q.val, 0] :=
  (by decide +kernel : ∀ q : Fin 8, ∃ t : Fin grid0.N, win0_2.index t = ![q.val, 0])

/-- WHAT POINT `t` WRITES BACK is block `t` of the flat form, of the position column and the table as the region
    finds them. -/
theorem flushed_eq (c : Dev nD) (t : Fin cfg0.N) :
    (dats m 0 c).flushed 2 t
      = ((cfg0.win 2).blk t).view.read (Elt Ideal) (Cert.BitRows.flat (V m c main_v0) (V m c main_arg1)) := by
  show (cfg0.win 2).cut (grid0.coords t) ((dats m 0 c).after 2 t) = _
  rw [after0_2]
  unfold out0_2
  rw [View.canon_unit_zero offset_zero]
  simp only [View.ld_unit_zero (S := S4096x1) offset_zero, View.ld_unit_zero (S := S13x1024) offset_zero]
  obtain ⟨e0, e1, e2, e3, e4⟩ := block_indices t
  funext j
  obtain ⟨r, d, rfl⟩ : ∃ (r : Fin 4096) (d : Fin 1024), j = ix2 r d := ⟨j 0, j 1, eq_ix2 (n0 := 4096) (n1 := 1024) j⟩
  rw [View.read_apply]
  refine (Cert.KernelIdeal.RowValue.payload_apply (iblk m c 0 t) (iblk m c 1 t) r d).trans ?_
  unfold Cert.BitRows.flat
  refine Cert.BitRows.row_congr ?_ (fun k => ?_)
  · show V m c main_v0 (((cfg0.win 0).blk t).view.emb (ix2 r 0)) = V m c main_v0 _
    refine congrArg (V m c main_v0) (funext fun a => Fin.ext ?_)
    match a with
    | ⟨0, _⟩ => show win0_0.index t (0 : Fin 2) * 4096 + 1 * r.val = win0_2.index t (0 : Fin 2) * 4096 + 1 * r.val; omega
    | ⟨1, _⟩ => show win0_0.index t (1 : Fin 2) * 1 + 1 * 0 = 0; omega
  · show V m c main_arg1 (((cfg0.win 1).blk t).view.emb (ix2 k d)) = V m c main_arg1 _
    refine congrArg (V m c main_arg1) (funext fun a => Fin.ext ?_)
    match a with
    | ⟨0, _⟩ => show win0_1.index t (0 : Fin 2) * 13 + 1 * k.val = k.val; omega
    | ⟨1, _⟩ => show win0_1.index t (1 : Fin 2) * 1024 + 1 * d.val = win0_2.index t (1 : Fin 2) * 1024 + 1 * d.val; omega

/-- An index of the output array is in point `t`'s block iff each coordinate is in the block's range on its axis. -/
theorem mem_block (t : Fin cfg0.N) (i : S32768x1024.Idx) :
    i ∈ ((cfg0.win 2).blk t).view.set ↔ ∀ a : Fin 2, win0_2.index t a * S4096x1024.size a ≤ (i a).val ∧ (i a).val < win0_2.index t a * S4096x1024.size a + S4096x1024.size a := by
  show i ∈ ((View.whole main_v1).slice (win0_2.rect t)).set ↔ _
  rw [View.set_slice_whole, Rect.mem_set_unit]
  exact Iff.rfl

/-- THE BLOCKS TILE THE ROWS: row `ρ` is in the block of the point whose block index is `ρ / 4096`. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  obtain ⟨t, ht⟩ := block_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 1024 ≤ (i 1).val ∧ (i 1).val < win0_2.index t (1 : Fin 2) * 1024 + 1024; omega

/-- THE REGION'S OUTPUT ARRAY after the run is the flat form. -/
theorem region_result (c : Dev nD) :
    (dats m 0 c).arrAt 2 cfg0.N = Cert.BitRows.flat (V m c main_v0) (V m c main_arg1) :=
  (dats m 0 c).arrAt_eq_of_cover 2 _ (fun t _ => flushed_eq m c t) covered

/-- The line before the region: the position column the region finds is the launched positions, flattened. -/
theorem column_eq (c : Dev nD) :
    (V m c main_v0 : S32768x1.Idx → BitVec 32)
      = shapeCast S32768x1 (m ((c : Thread nD τ).loc main_arg0)) Facts₀.shapeCasts_S4x8192_S32768x1 := by
  show StableHlo.after hostOps0 (fun b => m (c, b)) (Proc.devRef .tc main_v0) = _
  after_results
  rfl

/-- The line after the region regroups the region's output: the result is the grid form of the launched arguments. -/
theorem result_eq (c : Dev nD) :
    Pipeline.afterTail₀ cfgs (dats m) 0 (V0 m) [hostOps1] c main_v2
      = Cert.BitRows.grid (m ((c : Thread nD τ).loc main_arg0)) (m ((c : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = Cert.BitRows.flat (shapeCast S32768x1 (m ((c : Thread nD τ).loc main_arg0)) Facts₀.shapeCasts_S4x8192_S32768x1)
          (m ((c : Thread nD τ).loc main_arg1)) :=
    (Pipeline.withArrays_arr spec0 launch0.win.arr_inj c _ _ 2).trans
      ((region_result m c).trans (by rw [column_eq, V_main_arg1]))
  rw [hA]
  exact Cert.BitRows.regroup_flat _ _ _ _

/-! ## The run, read -/

/-- Every weakly fair execution of the kernel's program terminates with its result at the grid form of the launched
    arguments, and the arguments unchanged. -/
theorem run : θ_run defs (onTc (τ := τ) (main (F := Ideal))) ⟨m, fun _ => 0, ρ⟩ fun r => ∀ c : Dev nD,
      r.2.mem ((c.tc : Thread nD τ).loc main_v2)
        = Cert.BitRows.grid (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.ArrayValue

end
-- ==== Proof.RefGrid.lean ====
/-
  The reference's result, stage by stage, is the grid form of the common value.

  Reading the last stage at an index `(b, s, d)` gives the contraction over `k < 13` of the converted bit
  matrix at `(b, s, k)` times the table at `(k, d)`. The bit matrix at `(b, s, k)` is the position `x (b, s)`
  (two broadcasts that only add and stretch unit axes) shifted right by the iota value `k` (again two broadcasts
  of a one-axis iota), masked with the constant one, converted: bit `k` of the position, the host's arithmetic
  shift being the vector unit's on 32-bit words.
-/
import proofs.«409203_j53077205844631_3_alg».proof.Proof.Gen.ReferenceIdeal.Read
import proofs.«409203_j53077205844631_3_alg».proof.Proof.BitRows

noncomputable section

namespace Cert.ReferenceIdeal.GridValue

open Cert.ReferenceIdeal Cert.ReferenceIdeal.Gen Cert.ReferenceIdeal.Read
open Idealize.ShloMosaic Idealize.ShloMosaic.ValueIdx

/-- The position the bit matrix reads at `(b, s, k)`: the two broadcasts keep the first two coordinates. -/
theorem pos_idx (i : S4x8192x1024.Idx) (k : Fin 13) :
    idx_main_v0 (idx_main_v3 (lidx_main_v9 i k)) = ix2 (n0 := 4) (n1 := 8192) (i 0) (i 1) :=
  funext fun a => Fin.ext (by match a with | ⟨0, _⟩ => rfl | ⟨1, _⟩ => rfl)

/-- The table entry the contraction reads: row `k`, the output's column. -/
theorem tab_idx (i : S4x8192x1024.Idx) (k : Fin 13) :
    ridx_main_v9 i k = ix2 (n0 := 13) (n1 := 1024) k (i 2) :=
  funext fun a => Fin.ext (by match a with | ⟨0, _⟩ => rfl | ⟨1, _⟩ => rfl)

/-- The reference's last stage is `grid` of its two arguments. -/
theorem stage_eq_grid (x0 : (⟨S4x8192, .i32⟩ : BufTy).Contents (Elt Ideal)) (x1 : (⟨S13x1024, .f32⟩ : BufTy).Contents (Elt Ideal)) :
    val_main_v9 (F := Ideal) x0 x1 = Cert.BitRows.grid x0 x1 := by
  funext i
  rw [val_main_v9_apply]
  unfold Cert.BitRows.grid Cert.BitRows.row
  refine Finset.sum_congr rfl fun k _ => ?_
  rw [val_main_v8_apply, val_main_v7_apply, val_main_v5_apply, val_main_v3_apply, val_main_v0_apply, val_main_v4_apply,
    val_main_v2_apply, val_main_v1_apply, val_main_v6_apply, val_main_c_apply, pos_idx, tab_idx, Cert.BitRows.shrsi_host]
  rfl

end Cert.ReferenceIdeal.GridValue

end
-- ==== Proof.lean ====
/-
  Binary position embedding: each position word selects, by its low 13 bits, rows of a 13 x 1024 table, and its
  output row is the sum of the selected rows.

  Both programs form the bit matrix the same way — the position shifted right arithmetically by `k`, masked to its
  low bit, converted to a float (0 or 1) — and contract it with the table over `k < 13`. The kernel does so on the
  positions flattened to 32768 rows, 4096 rows per grid point, one matrix product into a zero accumulator per point,
  and regroups the 32768 result rows as [4, 8192]; the reference contracts on the [4, 8192] grid directly. Over the
  extended reals a product into a zero accumulator and a host contraction are the same finite sum, term for term in
  the same order of factors, so no law beyond reindexing is needed and the table's finiteness is never used.

  `BitRows` states the common value (a row, its flat and grid arrangements, and that regrouping the flat one gives
  the grid one); `KernelRow` reads the kernel body's stored value at an index; `KernelArray` carries that through the
  blocks, the tiling of the rows and the two regrouping lines to the kernel program's result; `RefGrid` reads the
  reference's stages to the same function. The three frames are the generated ones (the reference's is its run with
  the result dropped), and the idealization rewrote nothing, so `preserves` is trivial.
-/
import proofs.«409203_j53077205844631_3_alg».proof.Defs
import proofs.«409203_j53077205844631_3_alg».proof.Proof.Gen.Kernel
import proofs.«409203_j53077205844631_3_alg».proof.Proof.Gen.Kernel.Skeleton
import proofs.«409203_j53077205844631_3_alg».proof.Proof.Gen.Kernel.Launch
import proofs.«409203_j53077205844631_3_alg».proof.Proof.Gen.Kernel.Points
import proofs.«409203_j53077205844631_3_alg».proof.Proof.Gen.Kernel.Frame
import proofs.«409203_j53077205844631_3_alg».proof.Proof.Gen.KernelIdeal
import proofs.«409203_j53077205844631_3_alg».proof.Proof.Gen.KernelIdeal.Skeleton
import proofs.«409203_j53077205844631_3_alg».proof.Proof.Gen.KernelIdeal.Launch
import proofs.«409203_j53077205844631_3_alg».proof.Proof.Gen.KernelIdeal.Points
import proofs.«409203_j53077205844631_3_alg».proof.Proof.Gen.KernelIdeal.Frame
import proofs.«409203_j53077205844631_3_alg».proof.Proof.Gen.ReferenceIdeal
import proofs.«409203_j53077205844631_3_alg».proof.Proof.Gen.ReferenceIdeal.Run
import proofs.«409203_j53077205844631_3_alg».proof.Proof.Gen.ReferenceIdeal.Read
import proofs.«409203_j53077205844631_3_alg».proof.Proof.Gen.Pre_finite_inputs
import proofs.«409203_j53077205844631_3_alg».proof.Proof.BitRows
import proofs.«409203_j53077205844631_3_alg».proof.Proof.KernelRow
import proofs.«409203_j53077205844631_3_alg».proof.Proof.KernelArray
import proofs.«409203_j53077205844631_3_alg».proof.Proof.RefGrid
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the positions and the table, both programs end with the grid form of the common
    value of those arguments. -/
theorem algebraic : Cert.algebraic_KernelIdeal_ReferenceIdeal := by
  intro m ρ m' ρ' _ hagree
  refine ⟨fun c => Cert.BitRows.grid (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v9_eq _ _).trans
    ((Cert.ReferenceIdeal.GridValue.stage_eq_grid _ _).trans ?_))
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
